-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x128 : Shape := ⟨3, ![64, 1024, 128]⟩
abbrev S_ : Shape := ⟨0, ![]⟩

class Facts : Prop where
  bcast_S_S64x1024x128 : S_.BroadcastsInDim S64x1024x128 (![] : Fin 0 → Fin S64x1024x128.rank)
  reducesTo_S64x1024x128_S_d0_1_2 : S64x1024x128.ReducesTo [0, 1, 2] S_
  h_S_ : 0 < S_.numel

variable [Facts]

def fn {F : FTy → Type} [FloatOps F] (main_arg0 : FVec F S64x1024x128 .f32) : IVec S_ 1 :=
  let main_v0 : FVec F S64x1024x128 .f32 := Host.absf main_arg0
  let main_cst : FVec F S_ .f32 := constant S_ .f32 0x7F800000#32
  let main_v1 : FVec F S64x1024x128 .f32 := broadcastInDim S64x1024x128 ![] bcast_S_S64x1024x128 main_cst
  let main_v2 : IVec S64x1024x128 1 := cmpf .olt main_v0 main_v1
  let main_c : IVec S_ 1 := constantI S_ 1 1#1
  let main_v3 : IVec S_ 1 := (fun x v => Host.reduce IntOp.andi x v reducesTo_S64x1024x128_S_d0_1_2 h_S_) main_v2 main_c
  main_v3
-- ==== Kernel.lean ====
abbrev S64x1024x128 : Shape := ⟨3, ![64, 1024, 128]⟩
abbrev S2x1x128 : Shape := ⟨3, ![2, 1, 128]⟩
abbrev S1x1024x128 : Shape := ⟨3, ![1, 1024, 128]⟩
abbrev S1x1x128 : Shape := ⟨3, ![1, 1, 128]⟩
abbrev S1024x128 : Shape := ⟨2, ![1024, 128]⟩
abbrev S1024 : Shape := ⟨1, ![1024]⟩
abbrev S1024x1 : Shape := ⟨2, ![1024, 1]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 8
  | .vmem => 4
  | .smem => 0
  | _ => 0

abbrev bufTy : (tb : Table) → Fin (tcTables nBuf tb) → BufTy
  | .hbm, ⟨0, _⟩ => ⟨S64x1024x128, .f32⟩
  | .hbm, ⟨1, _⟩ => ⟨S2x1x128, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x1024x128, .f32⟩
  | .local _ .vmem, ⟨1, _⟩ => ⟨S1x1024x128, .f32⟩
  | .local _ .vmem, ⟨2, _⟩ => ⟨S1x1x128, .f32⟩
  | .local _ .vmem, ⟨3, _⟩ => ⟨S1x1x128, .f32⟩
  | _, _ => ⟨S64x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x1x128_S1x1x128_0_0_0 : ∀ a, (![0, 0, 0] : Fin 3 → Nat) a + S1x1x128.size a ≤ S1x1x128.size a
  h_S1x1x128 : 0 < S1x1x128.numel
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x128_S1024 : S1024x128.Reduces [1] S1024
  shapeCasts_S1024_S1024x1 : S1024.ShapeCasts S1024x1
  broadcasts_S1024x1_S1024x128 : S1024x1.Broadcasts S1024x128
  reduces_S1024x128_S128 : S1024x128.Reduces [0] S128
  shapeCasts_S128_S1x128 : S128.ShapeCasts S1x128
  reduces_S128x128_S128 : S128x128.Reduces [0] S128
  shapeCasts_S1x1x128_S1x128 : S1x1x128.ShapeCasts S1x128
  shapeCasts_S1x128_S1x1x128 : S1x128.ShapeCasts S1x1x128
  reducesTo_S2x1x128_S_d0_1_2 : S2x1x128.ReducesTo [0, 1, 2] S_
  h_S_ : 0 < S_.numel
  dot_S1024x128_S1024x128_S128x128_0_0_1_1_n_n_wf : DotDims.WF S1024x128 S1024x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S64x1024x128.size a
  hwx0_0 : ∀ i : grid0.Coords, EltTy.bits .f32 = 32 ∨ (Rect.block (s := S64x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S2x1x128.size a
  hwx0_1 : ∀ i : grid0.Coords, EltTy.bits .f32 = 32 ∨ (Rect.block (s := S2x1x128) S1x1x128.size (cc0_transform_1 i) (hinb0_1 i)).WholeWords (EltTy.packing .f32)

variable [Facts₀]

def dot_S1024x128_S1024x128_S128x128_0_0_1_1_n_n : DotDims S1024x128 S1024x128 S128x128 where
  lhsContracting := [0]
  rhsContracting := [0]
  lhsNonContracting := [1]
  rhsNonContracting := [1]
  lhsBatch := []
  rhsBatch := []
  wf := dot_S1024x128_S1024x128_S128x128_0_0_1_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024x128 : Shape := ⟨3, ![64, 1024, 128]⟩
abbrev S_ : Shape := ⟨0, ![]⟩
abbrev S64x1024 : Shape := ⟨2, ![64, 1024]⟩
abbrev S64x1024x1 : Shape := ⟨3, ![64, 1024, 1]⟩
abbrev S64x1024x1024 : Shape := ⟨3, ![64, 1024, 1024]⟩

abbrev nBuf : Space → Nat
  | .hbm => 20
  | .vmem => 0
  | .smem => 0
  | _ => 0

abbrev bufTy : (tb : Table) → Fin (tcTables nBuf tb) → BufTy
  | .hbm, ⟨0, _⟩ => ⟨S64x1024x128, .f32⟩
  | .hbm, ⟨1, _⟩ => ⟨S64x1024x128, .f32⟩
  | .hbm, ⟨2, _⟩ => ⟨S_, .f32⟩
  | .hbm, ⟨3, _⟩ => ⟨S64x1024, .f32⟩
  | .hbm, ⟨4, _⟩ => ⟨S64x1024x1, .f32⟩
  | .hbm, ⟨5, _⟩ => ⟨S64x1024x1, .f32⟩
  | .hbm, ⟨6, _⟩ => ⟨S_, .f32⟩
  | .hbm, ⟨7, _⟩ => ⟨S64x1024x1, .f32⟩
  | .hbm, ⟨8, _⟩ => ⟨S64x1024x1, .f32⟩
  | .hbm, ⟨9, _⟩ => ⟨S64x1024x128, .f32⟩
  | .hbm, ⟨10, _⟩ => ⟨S64x1024x128, .f32⟩
  | .hbm, ⟨11, _⟩ => ⟨S64x1024x1024, .f32⟩
  | .hbm, ⟨12, _⟩ => ⟨S_, .f32⟩
  | .hbm, ⟨13, _⟩ => ⟨S64x1024x1024, .f32⟩
  | .hbm, ⟨14, _⟩ => ⟨S64x1024x1024, .f32⟩
  | .hbm, ⟨15, _⟩ => ⟨S64x1024x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S64x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  reducesTo_S64x1024x128_S64x1024_d2 : S64x1024x128.ReducesTo [2] S64x1024
  h_S_ : 0 < S_.numel
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  bcast_S64x1024x1_S64x1024x128_0_1_2 : S64x1024x1.BroadcastsInDim S64x1024x128 (![0, 1, 2] : Fin 3 → Fin S64x1024x128.rank)
  bcast_S_S64x1024x1024 : S_.BroadcastsInDim S64x1024x1024 (![] : Fin 0 → Fin S64x1024x1024.rank)
  reducesTo_S64x1024x1024_S_d0_1_2 : S64x1024x1024.ReducesTo [0, 1, 2] S_
  dot_S64x1024x128_S64x1024x128_S64x1024x1024_2_2_1_1_0_0_wf : DotDims.WF S64x1024x128 S64x1024x128 S64x1024x1024 [2] [2] [1] [1] [0] [0]

variable [Facts₀]

def dot_S64x1024x128_S64x1024x128_S64x1024x1024_2_2_1_1_0_0 : DotDims S64x1024x128 S64x1024x128 S64x1024x1024 where
  lhsContracting := [2]
  rhsContracting := [2]
  lhsNonContracting := [1]
  rhsNonContracting := [1]
  lhsBatch := [0]
  rhsBatch := [0]
  wf := dot_S64x1024x128_S64x1024x128_S64x1024x1024_2_2_1_1_0_0_wf

class Facts : Prop extends Facts₀ where

variable [Facts]
-- ==== Proof.Spec.lean ====
/-
  The mathematics shared by both sides, over the reals.

  Each row x of the input (128 entries) is scaled to unit length with a clamp: u = x / max(‖x‖, ε).  For one
  batch the reference forms the 1024 x 1024 matrix of inner products S(s,t) = Σ_d u(s,d) u(t,d) and sums
  (S(s,t) - 1)² over all of it; the kernel forms the 128 x 128 Gram matrix g(d,e) = Σ_s u(s,d) u(s,e) and the
  column sums m(e) = Σ_s u(s,e), and sums Σ_d g(d,e)² - 2 m(e)² over e.  Both then divide by 64 · 1024 · 1024
  (the kernel adds the constant 1 afterwards).  This module states the two results as real numbers and collects
  the facts that carry an expression over the extended reals, whose entries are all real, to the reals.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Sim

open Idealize.ShloMosaic Idealize.ShloMosaic.ValueIdx

/-- The clamp ε under the norm: the real number the f32 pattern of 1e-12 denotes. -/
def epsR : ℝ := 9223372 * (2 : ℝ) ^ (-63 : ℤ)

/-- A row scaled to unit length, the norm clamped below by ε. -/
def unit (x : Fin 128 → ℝ) (d : Fin 128) : ℝ := x d / max (Real.sqrt (∑ k, x k * x k)) epsR

/-- Every row of a [64, 1024, 128] array scaled so. -/
def nrm (xr : (⟨3, ![64, 1024, 128]⟩ : Shape).Idx → ℝ) (b : Fin 64) (s : Fin 1024) (d : Fin 128) : ℝ :=
  unit (fun k => xr (ix3 b s k)) d

/-- The reference's result: the mean over batches and over pairs of rows of (⟨u_s, u_t⟩ - 1)². -/
def lossR (a : Fin 64 → Fin 1024 → Fin 128 → ℝ) : ℝ :=
  (∑ b, ∑ s, ∑ t, ((∑ d, a b s d * a b t d) - 1) * ((∑ d, a b s d * a b t d) - 1)) / 67108864

/-- One batch's contribution at column e in the kernel: Σ_d g(d,e)² - 2 m(e)². -/
def colPart (a : Fin 1024 → Fin 128 → ℝ) (e : Fin 128) : ℝ :=
  (∑ d, (∑ s, a s d * a s e) * (∑ s, a s d * a s e)) - 2 * ((∑ s, a s e) * (∑ s, a s e))

/-- The kernel's result: the contributions summed over batches and columns, divided by the count, plus one. -/
def lossK (a : Fin 64 → Fin 1024 → Fin 128 → ℝ) : ℝ :=
  (∑ b, ∑ e, colPart (a b) e) / 67108864 + 1

/-! ## From the extended reals to the reals -/

/-- A finite sum of reals, taken in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem epsR_pos : 0 < epsR := by unfold epsR; positivity

/-- The pattern of 1e-12 denotes ε. -/
theorem eps_eq : Ideal.ofBits .f32 0x2B8CBCCC#32 = (epsR : EReal) := by
  unfold epsR
  simp [Ideal.ofBits, Ideal.ieee, -EReal.coe_mul]

/-- The pattern of 2.0 denotes 2. -/
theorem two_eq : Ideal.ofBits .f32 0x40000000#32 = ((2 : ℝ) : EReal) := by
  simp [Ideal.ofBits, Ideal.ieee, -EReal.coe_mul]; norm_num

/-- The pattern 0x4C800000 denotes 2²⁶ = 64 · 1024 · 1024. -/
theorem count_eq : Ideal.ofBits .f32 0x4C800000#32 = ((67108864 : ℝ) : EReal) := by
  simp [Ideal.ofBits, Ideal.ieee, -EReal.coe_mul]; norm_num

/-- Dividing a real by the count stays real. -/
theorem div_count (r : ℝ) : Ideal.div (r : EReal) ((67108864 : ℝ) : EReal) = ((r / 67108864 : ℝ) : EReal) := by
  rw [Ideal.div_coe (by norm_num : (67108864 : ℝ) ≠ 0), ← EReal.coe_mul]
  congr 1
  ring

/-- The scaled row entry, computed in the extended reals from real entries, is the real one: the sum of squares is a
    nonnegative real, its root a real, the clamped norm a positive real, the quotient a real. -/
theorem unit_coe (x : Fin 128 → ℝ) (d : Fin 128) :
    Ideal.div (x d : EReal) (max (Ideal.sqrt (∑ k, (x k : EReal) * (x k : EReal))) (epsR : EReal)) = ((unit x d : ℝ) : EReal) := by
  have h1 : (∑ k, (x k : EReal) * (x k : EReal)) = ((∑ k, x k * x k : ℝ) : EReal) := by
    rw [← coe_sum]; exact Finset.sum_congr rfl fun k _ => (EReal.coe_mul _ _).symm
  have h2 : ¬ (∑ k, x k * x k) < 0 := not_lt.mpr (Finset.sum_nonneg fun k _ => mul_self_nonneg _)
  rw [h1, Ideal.sqrt_coe, if_neg h2, ← EReal.coe_strictMono.monotone.map_max]
  have h3 : max (Real.sqrt (∑ k, x k * x k)) epsR ≠ 0 := ne_of_gt (lt_of_lt_of_le epsR_pos (le_max_right _ _))
  rw [Ideal.div_coe h3, ← EReal.coe_mul]
  congr 1
  unfold unit
  rw [one_div, div_eq_mul_inv]

end Cert.Sim

end
-- ==== Proof.Algebra.lean ====
/-
  Pure real algebra: the kernel's result equals the reference's.

  For one batch with rows S and columns D, and P(s,t) = Σ_d a(s,d) a(t,d), g(d,e) = Σ_s a(s,d) a(s,e),
  m(e) = Σ_s a(s,e):

    Σ_{s,t} (P(s,t) - 1)² = Σ_{s,t} P(s,t)² - 2 Σ_{s,t} P(s,t) + |S|²
                          = Σ_{d,e} g(d,e)² - 2 Σ_e m(e)² + |S|².

  The first equality of sums is the exchange Σ_{s,t} Σ_{d,e} a(s,d) a(t,d) a(s,e) a(t,e)
  = Σ_{d,e} (Σ_s a(s,d) a(s,e)) (Σ_t a(t,d) a(t,e)); the second is Σ_{s,t} Σ_d a(s,d) a(t,d) = Σ_d m(d)².
  Summed over the 64 batches the constant |S|² = 1024² gives 64 · 1024² = 67108864, which divided by the
  count is the 1 the kernel adds.
-/
import proofs.«119217_g53377853555121_feedfinal_227_2_alg».proof.Proof.Spec
import Mathlib.Algebra.BigOperators.Ring.Finset
import Mathlib.Algebra.BigOperators.Fin
import Mathlib.Tactic.Ring
import Mathlib.Tactic.Linarith
import Mathlib.Tactic.NormNum

open scoped BigOperators

namespace Cert.Sim

section Abstract

variable {S D : Type*} [Fintype S] [Fintype D]

/-- Four nested finite sums: the two outer indices change places with the two inner ones. -/
private theorem sum4_swap (F : S → S → D → D → ℝ) :
    (∑ s, ∑ t, ∑ d, ∑ e, F s t d e) = ∑ d, ∑ e, ∑ s, ∑ t, F s t d e := by
  calc (∑ s, ∑ t, ∑ d, ∑ e, F s t d e)
      = ∑ s, ∑ d, ∑ t, ∑ e, F s t d e :=
        Finset.sum_congr rfl fun s _ => Finset.sum_comm
    _ = ∑ d, ∑ s, ∑ t, ∑ e, F s t d e := Finset.sum_comm
    _ = ∑ d, ∑ s, ∑ e, ∑ t, F s t d e :=
        Finset.sum_congr rfl fun d _ => Finset.sum_congr rfl fun s _ => Finset.sum_comm
    _ = ∑ d, ∑ e, ∑ s, ∑ t, F s t d e :=
        Finset.sum_congr rfl fun d _ => Finset.sum_comm

/-- The squared inner products of all pairs of rows sum to the squared entries of the Gram matrix of columns. -/
private theorem sum_sq_inner (a : S → D → ℝ) :
    (∑ s, ∑ t, (∑ d, a s d * a t d) * (∑ d, a s d * a t d))
      = ∑ d, ∑ e, (∑ s, a s d * a s e) * (∑ s, a s d * a s e) := by
  have hL : ∀ s t, (∑ d, a s d * a t d) * (∑ e, a s e * a t e)
      = ∑ d, ∑ e, (a s d * a s e) * (a t d * a t e) := by
    intro s t
    rw [Finset.sum_mul_sum]
    exact Finset.sum_congr rfl fun d _ => Finset.sum_congr rfl fun e _ => by ring
  have hR : ∀ d e, (∑ s, a s d * a s e) * (∑ t, a t d * a t e)
      = ∑ s, ∑ t, (a s d * a s e) * (a t d * a t e) := by
    intro d e
    rw [Finset.sum_mul_sum]
  calc (∑ s, ∑ t, (∑ d, a s d * a t d) * (∑ d, a s d * a t d))
      = ∑ s, ∑ t, ∑ d, ∑ e, (a s d * a s e) * (a t d * a t e) :=
        Finset.sum_congr rfl fun s _ => Finset.sum_congr rfl fun t _ => hL s t
    _ = ∑ d, ∑ e, ∑ s, ∑ t, (a s d * a s e) * (a t d * a t e) :=
        sum4_swap fun s t d e => (a s d * a s e) * (a t d * a t e)
    _ = ∑ d, ∑ e, (∑ s, a s d * a s e) * (∑ s, a s d * a s e) :=
        Finset.sum_congr rfl fun d _ => Finset.sum_congr rfl fun e _ => (hR d e).symm

/-- The inner products of all pairs of rows sum to the squared column sums. -/
private theorem sum_inner (a : S → D → ℝ) :
    (∑ s, ∑ t, ∑ d, a s d * a t d) = ∑ d, (∑ s, a s d) * (∑ s, a s d) := by
  have hR : ∀ d, (∑ s, a s d) * (∑ t, a t d) = ∑ s, ∑ t, a s d * a t d := by
    intro d
    rw [Finset.sum_mul_sum]
  calc (∑ s, ∑ t, ∑ d, a s d * a t d)
      = ∑ s, ∑ d, ∑ t, a s d * a t d :=
        Finset.sum_congr rfl fun s _ => Finset.sum_comm
    _ = ∑ d, ∑ s, ∑ t, a s d * a t d := Finset.sum_comm
    _ = ∑ d, (∑ s, a s d) * (∑ s, a s d) :=
        Finset.sum_congr rfl fun d _ => (hR d).symm

/-- One batch: the reference's sum over pairs of rows is the kernel's sum over columns plus |S|². -/
theorem pairs_eq_cols (a : S → D → ℝ) :
    (∑ s, ∑ t, ((∑ d, a s d * a t d) - 1) * ((∑ d, a s d * a t d) - 1))
      = (∑ e, ((∑ d, (∑ s, a s d * a s e) * (∑ s, a s d * a s e))
              - 2 * ((∑ s, a s e) * (∑ s, a s e))))
        + (Fintype.card S : ℝ) * (Fintype.card S : ℝ) := by
  have hsq : ∀ s t, ((∑ d, a s d * a t d) - 1) * ((∑ d, a s d * a t d) - 1)
      = (∑ d, a s d * a t d) * (∑ d, a s d * a t d) - 2 * (∑ d, a s d * a t d) + 1 := by
    intro s t; ring
  have hone : (∑ _s : S, ∑ _t : S, (1 : ℝ)) = (Fintype.card S : ℝ) * (Fintype.card S : ℝ) := by
    simp only [Finset.sum_const, Finset.card_univ, nsmul_eq_mul, mul_one]
  have hL : (∑ s, ∑ t, ((∑ d, a s d * a t d) - 1) * ((∑ d, a s d * a t d) - 1))
      = (∑ s, ∑ t, (∑ d, a s d * a t d) * (∑ d, a s d * a t d))
        - 2 * (∑ s, ∑ t, ∑ d, a s d * a t d) + ∑ _s : S, ∑ _t : S, (1 : ℝ) := by
    simp only [hsq, Finset.sum_add_distrib, Finset.sum_sub_distrib, ← Finset.mul_sum]
  have hR : (∑ e, ((∑ d, (∑ s, a s d * a s e) * (∑ s, a s d * a s e))
              - 2 * ((∑ s, a s e) * (∑ s, a s e))))
      = (∑ d, ∑ e, (∑ s, a s d * a s e) * (∑ s, a s d * a s e))
        - 2 * ∑ e, (∑ s, a s e) * (∑ s, a s e) := by
    rw [Finset.sum_sub_distrib, ← Finset.mul_sum, Finset.sum_comm]
  rw [hL, hR, sum_sq_inner, sum_inner, hone]

end Abstract

/-- The kernel's result is the reference's. -/
theorem lossK_eq_lossR (a : Fin 64 → Fin 1024 → Fin 128 → ℝ) : lossK a = lossR a := by
  have hcard : (Fintype.card (Fin 1024) : ℝ) * (Fintype.card (Fin 1024) : ℝ) = 1048576 := by
    rw [Fintype.card_fin]; norm_num
  have hb : ∀ b, (∑ s, ∑ t, ((∑ d, a b s d * a b t d) - 1) * ((∑ d, a b s d * a b t d) - 1))
      = (∑ e, colPart (a b) e) + 1048576 := by
    intro b
    rw [pairs_eq_cols (a b), hcard]
    rfl
  have hconst : (∑ _b : Fin 64, (1048576 : ℝ)) = 67108864 := by
    rw [Finset.sum_const, Finset.card_univ, Fintype.card_fin, nsmul_eq_mul]; norm_num
  have hsum : (∑ b, ∑ s, ∑ t, ((∑ d, a b s d * a b t d) - 1) * ((∑ d, a b s d * a b t d) - 1))
      = (∑ b, ∑ e, colPart (a b) e) + 67108864 := by
    rw [Finset.sum_congr rfl fun b _ => hb b, Finset.sum_add_distrib, hconst]
  have hne : (67108864 : ℝ) ≠ 0 := by norm_num
  unfold lossK lossR
  rw [hsum, add_div, div_self hne]

end Cert.Sim
-- ==== Proof.Finite.lean ====
import proofs.«119217_g53377853555121_feedfinal_227_2_alg».proof.Pre_finite_inputs
import proofs.«119217_g53377853555121_feedfinal_227_2_alg».proof.Proof.Gen.Pre_finite_inputs
import Idealize.ShloMosaic.Lib.ReduceAll
import Idealize.ShloMosaic.Lib.ValueIdx
import Idealize.ShloMosaic.PureOps.Ideal
import Mathlib.Data.EReal.Basic

/-!
  Finiteness of the input.  The precondition says that every entry a of the array satisfies |a| < +∞, where
  |a| = max a (-a) on the extended reals.  Neither -∞ nor +∞ satisfies it (both have |a| = +∞), so every entry is a
  real number, and the array is the image of a real-valued array under the inclusion of ℝ into the extended reals.
-/

noncomputable section

namespace Cert.Sim

open Idealize.ShloMosaic Idealize.ShloMosaic.ValueIdx

/-- The rank-0 shape has exactly one index. -/
private instance : Subsingleton Cert.Pre_finite_inputs.S_.Idx := ⟨fun a b => funext fun d => d.elim0⟩

/-- The f32 pattern with exponent field all ones, fraction zero and sign clear denotes +∞. -/
private theorem inf_eq : Ideal.ofBits .f32 0x7F800000#32 = (⊤ : EReal) := by
  simp [Ideal.ofBits, Ideal.ieee]

/-- An extended real whose absolute value max a (-a) lies strictly below +∞ is a real number. -/
private theorem real_of_abs_lt_top (a : EReal) (h : max a (-a) < ⊤) : ∃ r : ℝ, a = (r : EReal) := by
  induction a using EReal.rec with
  | bot => simp at h
  | coe r => exact ⟨r, rfl⟩
  | top => simp at h

/-- Under the precondition every entry has absolute value strictly below +∞. -/
private theorem abs_lt_top (x : FVec Ideal Cert.Pre_finite_inputs.S64x1024x128 .f32)
    (h : Cert.Pre_finite_inputs.fn (F := Ideal) x = fun _ => 1#1) (i : Cert.Pre_finite_inputs.S64x1024x128.Idx) :
    max (x i) (-(x i)) < (⊤ : EReal) := by
  -- the conjunction over all entries is true, so each conjunct is
  have h0 := congrFun h ValueIdx.ix0
  dsimp only [Cert.Pre_finite_inputs.fn] at h0
  have hi := Host.reduce_andi_all _ _ _ _ _ h0 i
  -- the conjunct at i compares |x i| with the broadcast constant, which reads the same pattern at every index
  change Ideal.cmp .olt (max (x i) (-(x i))) (Ideal.ofBits .f32 0x7F800000#32) = 1#1 at hi
  rw [inf_eq] at hi
  by_contra hn
  simp [Ideal.cmp, hn] at hi

theorem real_of_pre (x : FVec Ideal Cert.Pre_finite_inputs.S64x1024x128 .f32)
    (h : Cert.Pre_finite_inputs.fn (F := Ideal) x = fun _ => 1#1) :
    ∃ xr : Cert.Pre_finite_inputs.S64x1024x128.Idx → ℝ, x = fun i => ((xr i : ℝ) : EReal) := by
  -- choose the real number behind each entry
  choose xr hxr using fun i => real_of_abs_lt_top (x i) (abs_lt_top x h i)
  exact ⟨xr, funext hxr⟩

end Cert.Sim

end
-- ==== Proof.RefValue.lean ====
/-
  The reference's result as a real number.

  The input's entries are real.  Reading the reference one operation at a time: each row is scaled to unit length under the
  clamped norm, which gives the real array `nrm xr`; the batched product of that array with itself is, entry by entry, the
  real inner product of two scaled rows; one is taken off and the difference squared; the squares are summed over the whole
  [64, 1024, 1024] array, which is the triple sum over batch, row and row; and the total is divided by the count.  Every
  intermediate entry is a real number carried in the extended reals, so the final entry is the real `lossR (nrm xr)`.
-/
import proofs.«119217_g53377853555121_feedfinal_227_2_alg».proof.Proof.Spec
import proofs.«119217_g53377853555121_feedfinal_227_2_alg».proof.Proof.Gen.ReferenceIdeal.Read
import Idealize.ShloMosaic.PureOps.Ideal
import Idealize.ShloMosaic.PureOps.Ideal.Laws
import Idealize.ShloMosaic.Lib.ValueIdx
import Idealize.ShloMosaic.Lib.IdealHost
import Mathlib.Algebra.BigOperators.Group.Finset.Defs
import Mathlib.Data.Fintype.BigOperators
import Mathlib.Data.EReal.Basic
import Mathlib.Data.EReal.Operations

noncomputable section

open scoped BigOperators

namespace Cert.Sim

open Idealize.ShloMosaic Idealize.ShloMosaic.ValueIdx Cert.ReferenceIdeal Cert.ReferenceIdeal.Read

/-! ## The index functions of the layout operations, at an index given by coordinates -/

private theorem idx_v3_ix3 (b : Fin 64) (s : Fin 1024) (d : Fin 128) :
    idx_main_v3 (ix3 b s d) = ix3 b s (0 : Fin 1) := by
  funext a; refine Fin.ext ?_
  match a with | ⟨0, _⟩ => rfl | ⟨1, _⟩ => rfl | ⟨2, _⟩ => rfl

private theorem idx_c0v2_ix3 (b : Fin 64) (s : Fin 1024) (z : Fin 1) :
    idx_main_call0_v2 (ix3 b s z) = ix2 b s := by
  funext a; refine Fin.ext ?_
  match a with | ⟨0, _⟩ => rfl | ⟨1, _⟩ => rfl

private theorem idx_c0v1_ix2 (b : Fin 64) (s : Fin 1024) (k : Fin 128) :
    idx_main_call0_v1 (ix2 b s) k = ix3 b s k := by
  funext a; refine Fin.ext ?_
  match a with | ⟨0, _⟩ => rfl | ⟨1, _⟩ => rfl | ⟨2, _⟩ => rfl

/-! ## The scaled rows -/

/-- The quotient the reference forms at (b, s, d) is the real scaled entry. -/
theorem v4_val (xr : S64x1024x128.Idx → ℝ) (b : Fin 64) (s : Fin 1024) (d : Fin 128) :
    val_main_v4 (F := Ideal) (fun j => ((xr j : ℝ) : EReal)) (ix3 b s d) = ((nrm xr b s d : ℝ) : EReal) := by
  rw [val_main_v4_apply, val_main_v3_apply, idx_v3_ix3, val_main_v2_apply, val_main_v0_apply,
    val_main_call0_v2_apply, idx_c0v2_ix3, val_main_call0_v1_apply, val_main_v1_apply, val_main_cst_apply,
    val_main_call0_cst_apply]
  simp only [val_main_call0_v0_apply, idx_c0v1_ix2, Ideal.hostDivf_def, Ideal.hostUnary_sqrt_def, Ideal.maximumf_def,
    Ideal.mulf_def, Ideal.ofBits_def, Ideal.ofBits_zero_f32, zero_add, eps_eq]
  exact unit_coe (fun k => xr (ix3 b s k)) d

/-! ## The inner products -/

private theorem lidx_v5_ix3 (b : Fin 64) (s t : Fin 1024) (k : Fin 128) :
    lidx_main_v5 (ix3 b s t) k = ix3 b s k := by
  funext a; refine Fin.ext ?_
  match a with | ⟨0, _⟩ => rfl | ⟨1, _⟩ => rfl | ⟨2, _⟩ => rfl

private theorem ridx_v5_ix3 (b : Fin 64) (s t : Fin 1024) (k : Fin 128) :
    ridx_main_v5 (ix3 b s t) k = ix3 b t k := by
  funext a; refine Fin.ext ?_
  match a with | ⟨0, _⟩ => rfl | ⟨1, _⟩ => rfl | ⟨2, _⟩ => rfl

/-- The batched product's entry (b, s, t) is the real inner product of the scaled rows s and t of batch b. -/
theorem v5_val (xr : S64x1024x128.Idx → ℝ) (b : Fin 64) (s t : Fin 1024) :
    val_main_v5 (F := Ideal) (fun j => ((xr j : ℝ) : EReal)) (ix3 b s t)
      = ((∑ d, nrm xr b s d * nrm xr b t d : ℝ) : EReal) := by
  rw [val_main_v5_apply]
  simp only [lidx_v5_ix3, ridx_v5_ix3, v4_val, ← EReal.coe_mul]
  exact coe_sum Finset.univ (fun d => nrm xr b s d * nrm xr b t d)

/-! ## The squared differences -/

/-- Entry (b, s, t) after the one is taken off and the difference squared. -/
theorem v8_val (xr : S64x1024x128.Idx → ℝ) (b : Fin 64) (s t : Fin 1024) :
    val_main_v8 (F := Ideal) (fun j => ((xr j : ℝ) : EReal)) (ix3 b s t)
      = ((((∑ d, nrm xr b s d * nrm xr b t d) - 1) * ((∑ d, nrm xr b s d * nrm xr b t d) - 1) : ℝ) : EReal) := by
  rw [val_main_v8_apply, val_main_v7_apply, val_main_v6_apply, val_main_cst_0_apply, v5_val]
  simp only [Ideal.subf_def, Ideal.mulf_def, Ideal.ofBits_def, Ideal.ofBits_one_f32]
  rw [← EReal.coe_one, ← EReal.coe_sub, ← EReal.coe_mul]

/-! ## The total -/

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum of the squared differences over the whole array is the real triple sum. -/
theorem v9_val (xr : S64x1024x128.Idx → ℝ) (i : S_.Idx) :
    val_main_v9 (F := Ideal) (fun j => ((xr j : ℝ) : EReal)) i
      = ((∑ b, ∑ s, ∑ t, ((∑ d, nrm xr b s d * nrm xr b t d) - 1) * ((∑ d, nrm xr b s d * nrm xr b t d) - 1) : ℝ) : EReal) := by
  rw [val_main_v9_apply, val_main_cst_1_apply]
  simp only [Ideal.ofBits_def, Ideal.ofBits_zero_f32, zero_add]
  rw [sum_idx3]
  simp only [v8_val, coe_sum]

/-! ## The result -/

/-- The reference's result on a real input is the real mean `lossR` of the scaled rows. -/
theorem ref_value (xr : Cert.ReferenceIdeal.S64x1024x128.Idx → ℝ) (i : Cert.ReferenceIdeal.S_.Idx) :
    Cert.ReferenceIdeal.Read.val_main_v10 (F := Ideal) (fun j => ((xr j : ℝ) : EReal)) i
      = ((lossR (nrm xr) : ℝ) : EReal) := by
  rw [val_main_v10_apply, val_main_cst_2_apply, v9_val]
  simp only [Ideal.hostDivf_def, Ideal.ofBits_def, count_eq]
  rw [div_count]
  rfl

end Cert.Sim

end
-- ==== Proof.Point.lean ====
/-
  One grid step of the kernel, read at one column.

  A step takes one batch's block x (1024 rows of 128 entries) and the running row of 128 partial results.  It scales
  each row of x to unit length with the clamp, u(s,d) = x(s,d) / max(sqrt(Σ_k x(s,k)²), ε); forms the Gram matrix
  g(d,e) = Σ_s u(s,d) u(s,e) and the column sums m(e) = Σ_s u(s,e); and adds Σ_d g(d,e)² - 2 m(e)² to the running
  entry at column e.  This module reads the step's one pure term at a column, operation by operation, and shows that
  on a block of real entries the added amount is the real number the specification calls the column's part.
-/
import proofs.«119217_g53377853555121_feedfinal_227_2_alg».proof.Proof.Spec
import proofs.«119217_g53377853555121_feedfinal_227_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.Sim

open Idealize.ShloMosaic Idealize.ShloMosaic.ValueIdx Cert.KernelIdeal

/-! ## The layout operations at an index -/

section Layout
variable {α : Type}

/-- A vector of 1024 entries viewed as a column reads, at (s, u), the vector at s. -/
theorem column_apply (z : S1024.Idx → α) (h : S1024.ShapeCasts S1024x1) (s : Fin 1024) (u : Fin 1) :
    shapeCast S1024x1 z h (ix2 s u) = z (ix1 s) :=
  shapeCast_apply z h _ _ (by
    have hu : u.val = 0 := by omega
    rw [Shape.rowMajor_val_one, Shape.rowMajor_val_two]
    show s.val = s.val * 1 + u.val
    rw [hu, Nat.mul_one, Nat.add_zero])

/-- A column spread along the rows of a 1024 x 128 array reads, at (s, d), the column at (s, 0). -/
theorem spread_apply (w : S1024x1.Idx → α) (h : S1024x1.Broadcasts S1024x128) (s : Fin 1024) (d : Fin 128) :
    broadcastTo S1024x128 w h (ix2 s d) = w (ix2 s (0 : Fin 1)) :=
  broadcastTo_apply w h _ _ fun a => match a with
    | ⟨0, _⟩ => by show s.val = if (1024 : Nat) = 1 then 0 else s.val; rw [if_neg (by decide)]
    | ⟨1, _⟩ => by show 0 = if (1 : Nat) = 1 then 0 else d.val; rw [if_pos rfl]

end Layout

/-! ## The sums along one axis at an index -/

/-- The sum along each row of a 1024 x 128 array. -/
theorem rowSum_apply (y : FVec Ideal S1024x128 .f32) (h : S1024x128.Reduces [1] S1024) (hφ : FKind.Formats .f32)
    (hacc : (0x00000000#32 : BitVec 32) = FKind.add.neutral .f32 hφ) (s : Fin 1024) :
    multiReduction (F := Ideal) .add [1] S1024 y 0x00000000#32 h hφ hacc (ix1 s) = ∑ k : Fin 128, y (ix2 s k) := by
  refine (Ideal.multiReduction_add_single y _ h hφ hacc (ix1 s)).trans ?_
  refine Finset.sum_congr rfl fun k _ => congrArg y ?_
  funext a; apply Fin.ext; match a with | ⟨0, _⟩ => rfl | ⟨1, _⟩ => rfl

/-- The sum down each column of a 1024 x 128 array. -/
theorem colSum_apply (y : FVec Ideal S1024x128 .f32) (h : S1024x128.Reduces [0] S128) (hφ : FKind.Formats .f32)
    (hacc : (0x00000000#32 : BitVec 32) = FKind.add.neutral .f32 hφ) (e : Fin 128) :
    multiReduction (F := Ideal) .add [0] S128 y 0x00000000#32 h hφ hacc (ix1 e) = ∑ s : Fin 1024, y (ix2 s e) := by
  refine (Ideal.multiReduction_add_single y _ h hφ hacc (ix1 e)).trans ?_
  refine Finset.sum_congr rfl fun k _ => congrArg y ?_
  funext a; apply Fin.ext; match a with | ⟨0, _⟩ => rfl | ⟨1, _⟩ => rfl

/-- The sum down each column of a 128 x 128 array. -/
theorem colSumSq_apply (y : FVec Ideal S128x128 .f32) (h : S128x128.Reduces [0] S128) (hφ : FKind.Formats .f32)
    (hacc : (0x00000000#32 : BitVec 32) = FKind.add.neutral .f32 hφ) (e : Fin 128) :
    multiReduction (F := Ideal) .add [0] S128 y 0x00000000#32 h hφ hacc (ix1 e) = ∑ d : Fin 128, y (ix2 d e) := by
  refine (Ideal.multiReduction_add_single y _ h hφ hacc (ix1 e)).trans ?_
  refine Finset.sum_congr rfl fun k _ => congrArg y ?_
  funext a; apply Fin.ext; match a with | ⟨0, _⟩ => rfl | ⟨1, _⟩ => rfl

/-! ## The product that contracts the rows of both operands -/

theorem gram_lhs_0 (i : S128x128.Idx) (q : dot_S1024x128_S1024x128_S128x128_0_0_1_1_n_n.contr.Idx) :
    (dot_S1024x128_S1024x128_S128x128_0_0_1_1_n_n.lhsIdx i q 0).val = (q ⟨0, by decide⟩).val :=
  dot_S1024x128_S1024x128_S128x128_0_0_1_1_n_n.lhsIdx_val_of_single rfl i q
theorem gram_lhs_1 (i : S128x128.Idx) (q : dot_S1024x128_S1024x128_S128x128_0_0_1_1_n_n.contr.Idx) :
    (dot_S1024x128_S1024x128_S128x128_0_0_1_1_n_n.lhsIdx i q 1).val = (i 0).val := by
  unfold DotDims.lhsIdx
  rw [dif_neg (show ¬(1 : Fin S1024x128.rank) ∈ dot_S1024x128_S1024x128_S128x128_0_0_1_1_n_n.lhsBatch by decide), dif_pos (show (1 : Fin S1024x128.rank) ∈ dot_S1024x128_S1024x128_S128x128_0_0_1_1_n_n.lhsNonContracting by decide)]
  rfl
theorem gram_rhs_0 (i : S128x128.Idx) (q : dot_S1024x128_S1024x128_S128x128_0_0_1_1_n_n.contr.Idx) :
    (dot_S1024x128_S1024x128_S128x128_0_0_1_1_n_n.rhsIdx i q 0).val = (q ⟨0, by decide⟩).val :=
  dot_S1024x128_S1024x128_S128x128_0_0_1_1_n_n.rhsIdx_val_of_single rfl i q
theorem gram_rhs_1 (i : S128x128.Idx) (q : dot_S1024x128_S1024x128_S128x128_0_0_1_1_n_n.contr.Idx) :
    (dot_S1024x128_S1024x128_S128x128_0_0_1_1_n_n.rhsIdx i q 1).val = (i 1).val := by
  unfold DotDims.rhsIdx
  rw [dif_neg (show ¬(1 : Fin S1024x128.rank) ∈ dot_S1024x128_S1024x128_S128x128_0_0_1_1_n_n.rhsBatch by decide), dif_pos (show (1 : Fin S1024x128.rank) ∈ dot_S1024x128_S1024x128_S128x128_0_0_1_1_n_n.rhsNonContracting by decide)]
  rfl

/-- The product of the transpose of a 1024 x 128 array with the array, into the zero array: at (d, e) the sum over the
    rows of the products of the entries in columns d and e. -/
theorem gram_apply (u : FVec Ideal S1024x128 .f32) (d e : Fin 128) :
    matmul dot_S1024x128_S1024x128_S128x128_0_0_1_1_n_n none u u (constant (F := Ideal) S128x128 .f32 0x00000000#32) (ix2 d e)
      = ∑ s : Fin 1024, u (ix2 s d) * u (ix2 s e) := by
  simp only [matmul]
  rw [Ideal.matmul_constant_zero_apply, ← Equiv.sum_comp (ValueIdx.contrEquiv1 dot_S1024x128_S1024x128_S128x128_0_0_1_1_n_n 1024 rfl rfl).symm]
  refine Finset.sum_congr rfl fun k _ => ?_
  have hk := ValueIdx.contrEquiv1_symm_val dot_S1024x128_S1024x128_S128x128_0_0_1_1_n_n 1024 rfl rfl k
  have el : dot_S1024x128_S1024x128_S128x128_0_0_1_1_n_n.lhsIdx (ix2 d e) ((ValueIdx.contrEquiv1 dot_S1024x128_S1024x128_S128x128_0_0_1_1_n_n 1024 rfl rfl).symm k) = ix2 k d := funext fun a => Fin.ext (by
    match a with
    | ⟨0, _⟩ => exact (gram_lhs_0 _ _).trans hk
    | ⟨1, _⟩ => exact gram_lhs_1 _ _)
  have er : dot_S1024x128_S1024x128_S128x128_0_0_1_1_n_n.rhsIdx (ix2 d e) ((ValueIdx.contrEquiv1 dot_S1024x128_S1024x128_S128x128_0_0_1_1_n_n 1024 rfl rfl).symm k) = ix2 k e := funext fun a => Fin.ext (by
    match a with
    | ⟨0, _⟩ => exact (gram_rhs_0 _ _).trans hk
    | ⟨1, _⟩ => exact gram_rhs_1 _ _)
  rw [el, er]

/-! ## The step in two stages -/

/-- The first stage: the block viewed as 1024 rows, each divided by the larger of its norm and the clamp. -/
def scaledBlock (x : Vec Ideal S1x1024x128 .f32) : FVec Ideal S1024x128 .f32 :=
  have rows : FVec Ideal S1024x128 .f32 := shapeCast S1024x128 x Gen.shapeCasts_S1x1024x128_S1024x128
  have sq : FVec Ideal S1024x128 .f32 := mulf rows rows
  have ss : FVec Ideal S1024 .f32 := multiReduction .add [1] S1024 sq 0x00000000#32 Gen.reduces_S1024x128_S1024 (.inl rfl) rfl
  have col : FVec Ideal S1024x1 .f32 := shapeCast S1024x1 ss Gen.shapeCasts_S1024_S1024x1
  have nrm : FVec Ideal S1024x1 .f32 := sqrt col
  have clamp : FVec Ideal S1024x1 .f32 := broadcast S1024x1 (Scalar.ofBits .f32 0x2B8CBCCC#32)
  have den : FVec Ideal S1024x1 .f32 := maximumf nrm clamp
  divf rows (broadcastTo S1024x128 den Gen.broadcasts_S1024x1_S1024x128)

/-- The second stage: from the scaled block u, the Gram matrix and the column sums, and the running row plus
    Σ_d g(d,e)² - 2 m(e)². -/
def stepRow (u : FVec Ideal S1024x128 .f32) (acc : Vec Ideal S1x1x128 .f32) : FVec Ideal S1x1x128 .f32 :=
  have g : FVec Ideal S128x128 .f32 := matmul dot_S1024x128_S1024x128_S128x128_0_0_1_1_n_n none u u (constant S128x128 .f32 0x00000000#32)
  have m : FVec Ideal S1x128 .f32 :=
    shapeCast S1x128 (multiReduction .add [0] S128 u 0x00000000#32 Gen.reduces_S1024x128_S128 (.inl rfl) rfl) Gen.shapeCasts_S128_S1x128
  have gg : FVec Ideal S1x128 .f32 :=
    shapeCast S1x128 (multiReduction .add [0] S128 (mulf g g) 0x00000000#32 Gen.reduces_S128x128_S128 (.inl rfl) rfl) Gen.shapeCasts_S128_S1x128
  have two : FVec Ideal S1x128 .f32 := broadcast S1x128 (Scalar.ofBits .f32 0x40000000#32)
  have part : FVec Ideal S1x128 .f32 := subf gg (mulf two (mulf m m))
  shapeCast S1x1x128 (addf (shapeCast S1x128 acc Gen.shapeCasts_S1x1x128_S1x128) part) Gen.shapeCasts_S1x128_S1x1x128

/-- The step's pure term is the second stage after the first. -/
theorem pay2_eq (x : Vec Ideal S1x1024x128 .f32) (acc : Vec Ideal S1x1x128 .f32) :
    Gen.k0_pay2 (F := Ideal) x acc = stepRow (scaledBlock x) acc := rfl

/-! ## The first stage at an entry -/

/-- The scaled block at (s, d): the block's entry over the larger of the root of the row's sum of squares and the clamp. -/
theorem scaledBlock_apply (x : Vec Ideal S1x1024x128 .f32) (s : Fin 1024) (d : Fin 128) :
    scaledBlock x (ix2 s d)
      = Ideal.div (x (ix3 0 s d))
          (max (Ideal.sqrt (∑ k : Fin 128, x (ix3 0 s k) * x (ix3 0 s k))) (Ideal.ofBits .f32 0x2B8CBCCC#32)) := by
  unfold scaledBlock
  refine (divf_apply _ _ _).trans ?_
  refine congrArg₂ Ideal.div (shapeCast_1ab_ab_apply x _ s d) ?_
  refine (spread_apply _ _ s d).trans ?_
  refine (maximumf_apply _ _ _).trans ?_
  refine congrArg₂ max ?_ rfl
  refine congrArg Ideal.sqrt ?_
  refine (column_apply _ _ s 0).trans ?_
  refine (rowSum_apply _ _ _ _ s).trans ?_
  refine Finset.sum_congr rfl fun k _ => ?_
  refine (mulf_apply _ _ _).trans ?_
  rw [shapeCast_1ab_ab_apply]

/-- On a block of real entries the scaled block's entry is the real scaled entry. -/
theorem scaledBlock_coe (xb : S1x1024x128.Idx → ℝ) (s : Fin 1024) (d : Fin 128) :
    scaledBlock (fun j => ((xb j : ℝ) : EReal)) (ix2 s d) = ((unit (fun k => xb (ix3 0 s k)) d : ℝ) : EReal) := by
  rw [scaledBlock_apply, eps_eq]
  exact unit_coe (fun k => xb (ix3 0 s k)) d

/-! ## The second stage at a column -/

/-- The second stage at column e, over any scaled block. -/
theorem stepRow_apply (u : FVec Ideal S1024x128 .f32) (acc : Vec Ideal S1x1x128 .f32) (e : Fin 128) :
    stepRow u acc (ix3 0 0 e)
      = acc (ix3 0 0 e)
        + ((∑ d : Fin 128, (∑ s : Fin 1024, u (ix2 s d) * u (ix2 s e)) * (∑ s : Fin 1024, u (ix2 s d) * u (ix2 s e)))
            - Ideal.ofBits .f32 0x40000000#32 * ((∑ s : Fin 1024, u (ix2 s e)) * (∑ s : Fin 1024, u (ix2 s e)))) := by
  unfold stepRow
  refine (shapeCast_ab_1ab_apply _ _ 0 0 e).trans ?_
  refine (addf_apply _ _ _).trans ?_
  refine congrArg₂ (· + ·) (shapeCast_1ab_ab_apply acc _ 0 e) ?_
  refine (subf_apply _ _ _).trans ?_
  refine congrArg₂ (· - ·) ?_ ?_
  · refine (shapeCast_a_1a_apply _ _ 0 e).trans ?_
    refine (colSumSq_apply _ _ _ _ e).trans ?_
    refine Finset.sum_congr rfl fun d _ => ?_
    refine (mulf_apply _ _ _).trans ?_
    rw [gram_apply]
  · refine (mulf_apply _ _ _).trans ?_
    refine congrArg₂ (· * ·) rfl ?_
    refine (mulf_apply _ _ _).trans ?_
    have hm := (shapeCast_a_1a_apply _ Gen.shapeCasts_S128_S1x128 0 e).trans (colSum_apply u Gen.reduces_S1024x128_S128 (.inl rfl) rfl e)
    rw [hm]

/-! ## The step on a block of real entries -/

/-- On a block of real entries the step adds, at column e, the column's part Σ_d g(d,e)² - 2 m(e)² of the scaled
    block, a real number, to the running entry. -/
theorem point_value (xb : Cert.KernelIdeal.S1x1024x128.Idx → ℝ) (acc : Vec Ideal Cert.KernelIdeal.S1x1x128 .f32) (e : Fin 128) :
    Cert.KernelIdeal.Gen.k0_pay2 (F := Ideal) (fun j => ((xb j : ℝ) : EReal)) acc (ix3 0 0 e)
      = acc (ix3 0 0 e) + ((colPart (fun s d => unit (fun k => xb (ix3 0 s k)) d) e : ℝ) : EReal) := by
  rw [pay2_eq, stepRow_apply]
  refine congrArg (acc (ix3 0 0 e) + ·) ?_
  simp only [scaledBlock_coe, two_eq]
  unfold colPart
  simp only [← EReal.coe_mul, coe_sum, ← EReal.coe_sub]

/-- The row a batch group starts from is zero. -/
theorem zero_value (j : Cert.KernelIdeal.S1x1x128.Idx) : Cert.KernelIdeal.Gen.k0_pay1 (F := Ideal) j = 0 := by
  unfold Gen.k0_pay1
  exact Ideal.ofBits_zero_f32

end Cert.Sim

end
-- ==== Proof.KernelSteps.lean ====
/-
  The kernel's output block, point by point.

  The grid has 64 points, one per batch; point t reads batch t of the input and belongs to group t / 32.  The
  [1, 1, 128] output block of a group is set to zero at the group's first point and every point adds its batch's
  column parts to it.  So after point n the block holds, at column e, the sum of the parts of the batches from the
  start of n's group up to n: by induction on the point, from what each of the two control cases of the body leaves
  (the zero row or the running row, plus the point's parts).
-/
import proofs.«119217_g53377853555121_feedfinal_227_2_alg».proof.Defs
import proofs.«119217_g53377853555121_feedfinal_227_2_alg».proof.Proof.Gen.KernelIdeal.Frame
import proofs.«119217_g53377853555121_feedfinal_227_2_alg».proof.Proof.Spec
import proofs.«119217_g53377853555121_feedfinal_227_2_alg».proof.Proof.Point
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.Sim.KRun

open Cert.KernelIdeal Cert.KernelIdeal.Gen

variable {F : FTy → Type} [FloatOps F]

/-- The zero offsets of a whole-block access. -/
theorem hz : (![0, 0, 0] : Fin 3 → Nat) = fun _ => 0 := funext fun a => by fin_cases a <;> rfl

/-- Away from a group's first point the body's one store covers the output block: it leaves the step's term of the
    input block and of the running row. -/
theorem out_B (c : Dev nD) (i : grid0.Coords) (a1 : Memref sig .tc .vmem S1x1024x128 .f32) (h1 : a1.IsWhole)
    (a2 : Memref sig .tc .vmem S1x1x128 .f32) (h2 : a2.IsWhole) (hc : ¬cond0_0 i) (x : Vec F S1x1024x128 .f32) (xo : Vec F S1x1x128 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  sl_unfold_words
  rw [View.canon_unit_zero hz]
  simp only [View.readAt_eq_ld, h1.read_unread, h2.read_unread, View.ld_unit_zero (S := S1x1024x128) hz, View.ld_unit_zero (S := S1x1x128) hz]

/-- At a group's first point the body first stores the zero row and reads it back: it leaves the step's term of the
    input block and of the zero row. -/
theorem out_A (c : Dev nD) (i : grid0.Coords) (a1 : Memref sig .tc .vmem S1x1024x128 .f32) (h1 : a1.IsWhole)
    (a2 : Memref sig .tc .vmem S1x1x128 .f32) (h2 : a2.IsWhole) (hc : cond0_0 i) (x : Vec F S1x1024x128 .f32) :
    out0_A_1 c i a1 h1 a2 h2 hc x = k0_pay2 x k0_pay1 := by
  unfold out0_A_1
  rw [View.read_writes_eq_canon _ _ _ (cover0_A_1 c i a1 h1 a2 h2 hc x)]
  unfold kernelRun0_A
  dsimp only
  sl_unfold_words
  rw [View.canon_cons_unit_zero (S := S1x1x128) hz, View.readCov_unit_zero (S := S1x1x128) _ hz]
  simp only [View.readAt_eq_ld, h1.read_unread, View.ld_unit_zero (S := S1x1024x128) hz]

/-! ## Over the extended reals, on a real input -/
section AtIdeal

variable (m : (ℓ : Loc nD τ sig) → Buf (Elt Ideal) ℓ) (ρ : Dev nD → PrngReg)

/-- The grid has 64 points. -/
theorem lt64 (t : Fin cfg0.N) : t.val < 64 := lt_of_lt_of_eq t.isLt N_0

/-- The input's block index at point t is (t, 0, 0). -/
theorem in_index : ∀ t : Fin cfg0.N, win0_0.index t (0 : Fin 3) = t.val ∧ win0_0.index t (1 : Fin 3) = 0 ∧ win0_0.index t (2 : Fin 3) = 0 :=
  (by decide +kernel : ∀ t : Fin grid0.N, _)

/-- The output's block index at point t is (t / 32, 0, 0). -/
theorem out_index : ∀ t : Fin cfg0.N, win0_1.index t (0 : Fin 3) = t.val / 32 ∧ win0_1.index t (1 : Fin 3) = 0 ∧ win0_1.index t (2 : Fin 3) = 0 :=
  (by decide +kernel : ∀ t : Fin grid0.N, _)

/-- Point t's input block is batch t of the input: on a real input, the real block (s, d) ↦ xr (t, s, d). -/
theorem iblk_real (c : Dev nD) (xr : S64x1024x128.Idx → ℝ)
    (hm : m ((c : Thread nD τ).loc main_arg0) = fun i => ((xr i : ℝ) : EReal)) (t : Fin cfg0.N) :
    (iblk m c 0 t : Vec Ideal S1x1024x128 .f32) = fun j => ((xr (ix3 ⟨t.val, lt64 t⟩ (j 1) (j 2)) : ℝ) : EReal) := by
  funext j
  unfold iblk
  rw [View.read_apply]
  show V m c main_arg0 _ = _
  rw [V_main_arg0, hm]
  show ((xr _ : ℝ) : EReal) = _
  congr 2
  obtain ⟨e0, e1, e2⟩ := in_index t
  funext a
  apply Fin.ext
  match a with
  | ⟨0, _⟩ => show win0_0.index t (0 : Fin 3) * 1 + 1 * (j 0).val = t.val; have hj : (j 0).val < 1 := (j 0).isLt; omega
  | ⟨1, _⟩ => show win0_0.index t (1 : Fin 3) * 1024 + 1 * (j 1).val = (j 1).val; omega
  | ⟨2, _⟩ => show win0_0.index t (2 : Fin 3) * 128 + 1 * (j 2).val = (j 2).val; omega

/-- Batch b's contribution at column e, as a function of a natural number (zero past the last batch). -/
def part (xr : S64x1024x128.Idx → ℝ) (b : ℕ) (e : Fin 128) : ℝ := if h : b < 64 then colPart (nrm xr ⟨b, h⟩) e else 0

/-- One step at point t adds batch t's part at column e to the running entry. -/
theorem step_value (c : Dev nD) (xr : S64x1024x128.Idx → ℝ)
    (hm : m ((c : Thread nD τ).loc main_arg0) = fun i => ((xr i : ℝ) : EReal)) (t : Fin cfg0.N)
    (acc : Vec Ideal S1x1x128 .f32) (e : Fin 128) :
    k0_pay2 (F := Ideal) (iblk m c 0 t) acc (ix3 0 0 e) = acc (ix3 0 0 e) + ((part xr t.val e : ℝ) : EReal) := by
  rw [iblk_real m c xr hm t]
  refine (point_value _ acc e).trans ?_
  unfold part
  rw [dif_pos (lt64 t)]
  rfl

/-- After point n the output block holds, at column e, the parts of the batches from the start of n's group
    (batch 32 (n / 32)) up to n, summed: by induction on n, the group's first point starting from zero. -/
theorem outsAt_val (c : Dev nD) (xr : S64x1024x128.Idx → ℝ)
    (hm : m ((c : Thread nD τ).loc main_arg0) = fun i => ((xr i : ℝ) : EReal)) :
    ∀ (n : ℕ) (h : n < cfg0.N) (e : Fin 128),
      outsAt0 m c n h (ix3 0 0 e) = ((∑ j ∈ Finset.range (n % 32 + 1), part xr (n / 32 * 32 + j) e : ℝ) : EReal)
  | 0, h, e => by
    rw [outsAt0_A m c ⟨0, h⟩ rfl, out_A, step_value m c xr hm ⟨0, h⟩, zero_value, zero_add]
    simp
  | n + 1, h, e => by
    by_cases h0 : (n + 1) % 32 = 0
    · rw [outsAt0_A m c ⟨n + 1, h⟩ h0, out_A, step_value m c xr hm ⟨n + 1, h⟩, zero_value, zero_add]
      have h1 : (n + 1) / 32 * 32 = n + 1 := by omega
      rw [h0, h1]
      simp
    · rw [outsAt0_B m c ⟨n + 1, h⟩ h0, out_B, step_value m c xr hm ⟨n + 1, h⟩]
      show outsAt0 m c n _ (ix3 0 0 e) + _ = _
      rw [outsAt_val c xr hm n _ e, ← EReal.coe_add]
      have h1 : (n + 1) % 32 = n % 32 + 1 := by omega
      have h2 : (n + 1) / 32 = n / 32 := by omega
      have h3 : n + 1 = n / 32 * 32 + (n % 32 + 1) := by omega
      rw [h1, h2, Finset.sum_range_succ _ (n % 32 + 1)]
      show ((_ + part xr (n + 1) e : ℝ) : EReal) = _
      rw [← h3]

/-- What the [2, 1, 128] output array ends holding: each half of the batches summed. -/
def outR (xr : S64x1024x128.Idx → ℝ) (i : S2x1x128.Idx) : ℝ := ∑ j ∈ Finset.range 32, part xr ((i 0).val * 32 + j) (i 2)

/-- At a group's last point the block holds the group's 32 batches summed. -/
theorem out_point (c : Dev nD) (xr : S64x1024x128.Idx → ℝ)
    (hm : m ((c : Thread nD τ).loc main_arg0) = fun i => ((xr i : ℝ) : EReal)) (t : Fin cfg0.N)
    (h31 : t.val % 32 = 31) (y : S1x1x128.Idx) :
    outsAt0 m c t.val t.isLt y = ((∑ j ∈ Finset.range 32, part xr (t.val / 32 * 32 + j) (y 2) : ℝ) : EReal) := by
  have hy : ix3 0 0 (y 2) = y := by
    funext a
    match a with
    | ⟨0, _⟩ => exact Fin.ext (by have h : (y 0).val < 1 := (y 0).isLt; show 0 = (y 0).val; omega)
    | ⟨1, _⟩ => exact Fin.ext (by have h : (y 1).val < 1 := (y 1).isLt; show 0 = (y 1).val; omega)
    | ⟨2, _⟩ => rfl
  have h := outsAt_val m c xr hm t.val t.isLt (y 2)
  rw [h31] at h
  exact (congrArg (outsAt0 m c t.val t.isLt) hy.symm).trans h

end AtIdeal

end Cert.Sim.KRun

end
-- ==== Proof.KernelRun.lean ====
/-
  The kernel's run, read as a real number.

  A group's [1, 1, 128] output block is written back after the group's last point (the points 31 and 63), where it
  holds the group's 32 batches summed; the two blocks tile the [2, 1, 128] output array, so that array ends holding,
  at (i, 0, e), the sum over the batches 32 i .. 32 i + 31 of their parts at column e.  The lines after the region
  add up that array from zero, divide by the count 2²⁶ and add one; the two halves together hold every batch once, so
  the result is the real number the specification calls the kernel's result.
-/
import proofs.«119217_g53377853555121_feedfinal_227_2_alg».proof.Proof.KernelSteps
import proofs.«119217_g53377853555121_feedfinal_227_2_alg».proof.Proof.Algebra

noncomputable section

open Idealize.ShloMosaic Idealize.ShloMosaic.TcCoe Idealize.SL.Sem
open Idealize.ShloMosaic.Pipeline (Dat)
open Idealize.ShloMosaic.ValueIdx

namespace Cert.Sim.KRun

open Cert.KernelIdeal Cert.KernelIdeal.Gen

variable (m : (ℓ : Loc nD τ sig) → Buf (Elt Ideal) ℓ) (ρ : Dev nD → PrngReg)

/-- What a group's last point writes back is that group's block of the array (i, 0, e) ↦ Σ_{j < 32} part (32 i + j) e:
    the output's block index at point t is (t / 32, 0, 0). -/
theorem flushed_val (c : Dev nD) (xr : S64x1024x128.Idx → ℝ)
    (hm : m ((c : Thread nD τ).loc main_arg0) = fun i => ((xr i : ℝ) : EReal)) (t : Fin cfg0.N)
    (hf : (cfg0.win 1).flush t = true) :
    (dats m 0 c).flushed 1 t = ((cfg0.win 1).blk t).view.read (Elt Ideal) (fun i => ((outR xr i : ℝ) : EReal)) := by
  have h31 : t.val % 32 = 31 := (flush0_1 t).mp hf
  obtain ⟨e0, e1, e2⟩ := out_index t
  show (cfg0.win 1).cut (grid0.coords t) ((dats m 0 c).after 1 t) = _
  rw [after0_1]
  funext y
  show outsAt0 m c t.val t.isLt y = ((outR xr (((cfg0.win 1).blk t).view.emb y) : ℝ) : EReal)
  have hp := out_point m c xr hm t h31 y
  refine hp.trans ?_
  have ha : ((((cfg0.win 1).blk t).view.emb y) 0).val = t.val / 32 := by
    have hy0 : (y 0).val < 1 := (y 0).isLt
    show win0_1.index t (0 : Fin 3) * 1 + 1 * (y 0).val = t.val / 32
    omega
  have hb : (((cfg0.win 1).blk t).view.emb y) 2 = y 2 := by
    apply Fin.ext
    show win0_1.index t (2 : Fin 3) * 128 + 1 * (y 2).val = (y 2).val
    omega
  refine congrArg (fun r : ℝ => (r : EReal)) (Finset.sum_congr rfl fun j _ => ?_)
  show part xr (t.val / 32 * 32 + j) (y 2) = part xr (((((cfg0.win 1).blk t).view.emb y) 0).val * 32 + j) ((((cfg0.win 1).blk t).view.emb y) 2)
  rw [ha, hb]

/-- The two written blocks tile the output array (row i is covered by point 32 i + 31), so it ends holding that array. -/
theorem final_val (c : Dev nD) (xr : S64x1024x128.Idx → ℝ)
    (hm : m ((c : Thread nD τ).loc main_arg0) = fun i => ((xr i : ℝ) : EReal)) :
    (dats m 0 c).arrAt 1 cfg0.N = fun i => ((outR xr i : ℝ) : EReal) :=
  (dats m 0 c).arrAt_eq_of_cover 1 _ (flushed_val m c xr hm) fun i => by
    have hi0 : (i 0).val < 2 := (i 0).isLt
    have hi1 : (i 1).val < 1 := (i 1).isLt
    have hi2 : (i 2).val < 128 := (i 2).isLt
    have hN : cfg0.N = 64 := N_0
    have ht : (i 0).val * 32 + 31 < cfg0.N := by rw [hN]; omega
    obtain ⟨e0, e1, e2⟩ := out_index ⟨(i 0).val * 32 + 31, ht⟩
    have e0' : win0_1.index ⟨(i 0).val * 32 + 31, ht⟩ (0 : Fin 3) = ((i 0).val * 32 + 31) / 32 := e0
    refine ⟨⟨(i 0).val * 32 + 31, ht⟩, (flush0_1 _).mpr (by show ((i 0).val * 32 + 31) % 32 = 31; omega), ?_⟩
    show i ∈ ((View.whole main_v0).slice (win0_1.rect ⟨(i 0).val * 32 + 31, ht⟩)).set
    rw [View.set_slice_whole, Rect.mem_set_unit]
    intro a
    match a with
    | ⟨0, _⟩ =>
      show win0_1.index ⟨(i 0).val * 32 + 31, ht⟩ (0 : Fin 3) * 1 ≤ (i 0).val ∧ (i 0).val < win0_1.index ⟨(i 0).val * 32 + 31, ht⟩ (0 : Fin 3) * 1 + 1
      omega
    | ⟨1, _⟩ =>
      show win0_1.index ⟨(i 0).val * 32 + 31, ht⟩ (1 : Fin 3) * 1 ≤ (i 1).val ∧ (i 1).val < win0_1.index ⟨(i 0).val * 32 + 31, ht⟩ (1 : Fin 3) * 1 + 1
      omega
    | ⟨2, _⟩ =>
      show win0_1.index ⟨(i 0).val * 32 + 31, ht⟩ (2 : Fin 3) * 128 ≤ (i 2).val ∧ (i 2).val < win0_1.index ⟨(i 0).val * 32 + 31, ht⟩ (2 : Fin 3) * 128 + 128
      omega

/-- A rank-3 index set is the product of its three coordinate ranges, so a sum over it is the triple sum over the coordinates. -/
private def idx3Equiv {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

private theorem sum_rank3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idx3Equiv (n0 := n0) (n1 := n1) (n2 := n2)).symm f, Fintype.sum_prod_type]
  refine Finset.sum_congr rfl fun a _ => ?_
  rw [Fintype.sum_prod_type]
  rfl

/-- The two halves of the output array together hold every batch's parts once. -/
theorem sum_out (xr : S64x1024x128.Idx → ℝ) :
    (∑ a : Fin 2, ∑ b : Fin 1, ∑ e : Fin 128, outR xr (ix3 a b e)) = ∑ b : Fin 64, ∑ e : Fin 128, colPart (nrm xr b) e := by
  have hR : (∑ b : Fin 64, ∑ e : Fin 128, colPart (nrm xr b) e) = ∑ n ∈ Finset.range 64, ∑ e : Fin 128, part xr n e := by
    rw [← Fin.sum_univ_eq_sum_range (fun n => ∑ e : Fin 128, part xr n e) 64]
    refine Finset.sum_congr rfl fun b _ => Finset.sum_congr rfl fun e _ => ?_
    unfold part
    rw [dif_pos b.isLt]
  have hL : ∀ a : Fin 2, (∑ b : Fin 1, ∑ e : Fin 128, outR xr (ix3 a b e)) = ∑ j ∈ Finset.range 32, ∑ e : Fin 128, part xr (a.val * 32 + j) e := by
    intro a
    rw [Fin.sum_univ_one]
    unfold outR
    exact Finset.sum_comm
  rw [hR, Fin.sum_univ_two, hL, hL, show (64 : ℕ) = 32 + 32 from rfl, Finset.sum_range_add]
  simp

/-- The sum of every entry of a [2, 1, 128] array from zero, as the lines after the region take it. -/
theorem total_apply (y : FVec Ideal S2x1x128 .f32) (i : S_.Idx) :
    Host.reduceAdd (F := Ideal) y (constant S_ .f32 0x00000000#32) reducesTo_S2x1x128_S_d0_1_2 h_S_ i = ∑ j : S2x1x128.Idx, y j := by
  simp only [Host.reduceAdd, Ideal.hostReduceAdd_def]
  rw [Ideal.hostReduceAdd_total reducesTo_S2x1x128_S_d0_1_2 (fun b => b.elim0) y _ i]
  show Ideal.ofBits .f32 0x00000000#32 + _ = _
  rw [Ideal.ofBits_zero_f32, zero_add]

/-- The lines after the region: the sum of the output array from zero, over the count, plus one. -/
theorem tail_val (c : Dev nD) (xr : S64x1024x128.Idx → ℝ)
    (hm : m ((c : Thread nD τ).loc main_arg0) = fun i => ((xr i : ℝ) : EReal)) :
    Pipeline.afterTail₀ cfgs (dats m) 0 (V0 m) [hostOps1] c main_v3 = fun _ => ((lossK (nrm xr) : ℝ) : EReal) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.tc.devRef main_v0)
      = fun i => ((outR xr i : ℝ) : EReal) :=
    (Pipeline.withArrays_arr spec0 launch0.win.arr_inj c _ _ 1).trans (final_val m c xr hm)
  rw [hw]
  funext i
  show Ideal.div (Host.reduceAdd (F := Ideal) (fun i => ((outR xr i : ℝ) : EReal)) (constant S_ .f32 0x00000000#32) reducesTo_S2x1x128_S_d0_1_2 h_S_ i) (Ideal.ofBits .f32 0x4C800000#32) + Ideal.ofBits .f32 0x3F800000#32 = _
  rw [total_apply, coe_sum, count_eq, div_count, Ideal.ofBits_one_f32, ← EReal.coe_one, ← EReal.coe_add, sum_rank3, sum_out]
  rfl

/-- The kernel's run on a real input: the result is the real number lossK of the scaled rows, the argument unchanged. -/
theorem run (xr : Dev nD → S64x1024x128.Idx → ℝ)
    (hm : ∀ c : Dev nD, m ((c : Thread nD τ).loc main_arg0) = fun i => ((xr c i : ℝ) : EReal)) :
    θ_run defs (onTc (τ := τ) (main (F := Ideal))) ⟨m, fun _ => 0, ρ⟩ fun r => ∀ c : Dev nD,
      r.2.mem ((c.tc : Thread nD τ).loc main_v3) = (fun _ => ((lossK (nrm (xr c)) : ℝ) : EReal))
      ∧ r.2.mem ((c.tc : Thread nD τ).loc main_arg0) = m ((c.tc : Thread nD τ).loc main_arg0) :=
  (θ_run defs _ _).mono (fun r h c =>
    ⟨((h c).2 main_v3 (Pipeline.mem_restRefs_of main_v3 rfl (fun w => by fin_cases w <;> decide))).trans (tail_val m c (xr c) (hm c)),
     ((h c).1 0).trans (((dats m 0 c).arrAt_in 0 rfl _).trans ((A_eq m c 0).trans (V_main_arg0 m c)))⟩)
    (run_main m ρ)

end Cert.Sim.KRun
end
-- ==== Proof.lean ====
/-
  Row-normalised similarity loss: the kernel against its reference, over the extended reals.

  The input is a [64, 1024, 128] array of finite numbers.  Every row is scaled to unit length (the norm clamped below by
  ε).  The reference forms, per batch, the 1024 x 1024 matrix of inner products of the scaled rows and averages
  (S - 1)² over all batches and entries.  The kernel never forms S: per batch it takes the 128 x 128 Gram matrix g of
  the columns and the column sums m, accumulates Σ_d g(d,e)² - 2 m(e)² over the batches of each half of the grid, and
  the lines after the region add everything up, divide by the count and add one.  The two agree because
  Σ_{s,t} S(s,t)² = Σ_{d,e} g(d,e)² and Σ_{s,t} S(s,t) = Σ_e m(e)², an identity of finite sums of real numbers; it
  needs distributivity, hence the finiteness of the input, under which every intermediate value is a real number.

  Proof/Spec.lean states both results as real numbers and carries expressions over real entries from the extended
  reals to the reals; Proof/Algebra.lean proves the identity; Proof/Finite.lean reads the precondition as "every entry
  is real"; Proof/RefValue.lean reads the reference's run; Proof/Point.lean one grid step of the kernel;
  Proof/KernelSteps.lean the output block point by point; Proof/KernelRun.lean the kernel's run.
-/
import proofs.«119217_g53377853555121_feedfinal_227_2_alg».proof.Defs
import proofs.«119217_g53377853555121_feedfinal_227_2_alg».proof.Proof.Gen.Kernel
import proofs.«119217_g53377853555121_feedfinal_227_2_alg».proof.Proof.Gen.Kernel.Skeleton
import proofs.«119217_g53377853555121_feedfinal_227_2_alg».proof.Proof.Gen.Kernel.Launch
import proofs.«119217_g53377853555121_feedfinal_227_2_alg».proof.Proof.Gen.Kernel.Points
import proofs.«119217_g53377853555121_feedfinal_227_2_alg».proof.Proof.Gen.Kernel.Frame
import proofs.«119217_g53377853555121_feedfinal_227_2_alg».proof.Proof.Gen.KernelIdeal
import proofs.«119217_g53377853555121_feedfinal_227_2_alg».proof.Proof.Gen.KernelIdeal.Skeleton
import proofs.«119217_g53377853555121_feedfinal_227_2_alg».proof.Proof.Gen.KernelIdeal.Launch
import proofs.«119217_g53377853555121_feedfinal_227_2_alg».proof.Proof.Gen.KernelIdeal.Points
import proofs.«119217_g53377853555121_feedfinal_227_2_alg».proof.Proof.Gen.KernelIdeal.Frame
import proofs.«119217_g53377853555121_feedfinal_227_2_alg».proof.Proof.Gen.ReferenceIdeal
import proofs.«119217_g53377853555121_feedfinal_227_2_alg».proof.Proof.Gen.Pre_finite_inputs
import proofs.«119217_g53377853555121_feedfinal_227_2_alg».proof.Proof.Gen.ReferenceIdeal.Run
import proofs.«119217_g53377853555121_feedfinal_227_2_alg».proof.Proof.Gen.ReferenceIdeal.Read
import proofs.«119217_g53377853555121_feedfinal_227_2_alg».proof.Proof.Spec
import proofs.«119217_g53377853555121_feedfinal_227_2_alg».proof.Proof.Algebra
import proofs.«119217_g53377853555121_feedfinal_227_2_alg».proof.Proof.Finite
import proofs.«119217_g53377853555121_feedfinal_227_2_alg».proof.Proof.RefValue
import proofs.«119217_g53377853555121_feedfinal_227_2_alg».proof.Proof.KernelRun
import Idealize.ShloMosaic.Adequacy
import Idealize.ShloMosaic.Init

noncomputable section

namespace Cert.Proof

open Idealize.ShloMosaic Idealize.SL.Sem

/-- The word-level kernel runs and leaves its argument as it was. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition the input is a real array xr; the kernel ends at lossK of its scaled rows, the reference at
    lossR of them, and the two real numbers are equal. -/
theorem algebraic : Cert.algebraic_KernelIdeal_ReferenceIdeal := by
  intro m ρ m' ρ' hpre hagree
  choose xr hxr using fun c => Cert.Sim.real_of_pre _ (hpre c)
  refine ⟨fun c _ => ((Cert.Sim.lossK (Cert.Sim.nrm (xr c)) : ℝ) : EReal), Cert.Sim.KRun.run m ρ xr hxr, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, hagree c, hxr c]
  funext i
  rw [Cert.Sim.ref_value]
  show _ = ((Cert.Sim.lossK (Cert.Sim.nrm (xr c)) : ℝ) : EReal)
  rw [Cert.Sim.lossK_eq_lossR]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
